-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x192 : Shape := ⟨2, ![50000, 192]⟩
abbrev S400000 : Shape := ⟨1, ![400000]⟩
abbrev S192x192 : Shape := ⟨2, ![192, 192]⟩
abbrev S192 : Shape := ⟨1, ![192]⟩
abbrev S1 : Shape := ⟨1, ![1]⟩
abbrev S192x1 : Shape := ⟨2, ![192, 1]⟩
abbrev S_ : Shape := ⟨0, ![]⟩

class Facts : Prop where
  bcast_S_S50000x192 : S_.BroadcastsInDim S50000x192 (![] : Fin 0 → Fin S50000x192.rank)
  reducesTo_S50000x192_S_d0_1 : S50000x192.ReducesTo [0, 1] S_
  h_S_ : 0 < S_.numel
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S1 : S_.BroadcastsInDim S1 (![] : Fin 0 → Fin S1.rank)
  reducesTo_S1_S_d0 : S1.ReducesTo [0] S_
  bcast_S_S192x1 : S_.BroadcastsInDim S192x1 (![] : Fin 0 → Fin S192x1.rank)
  reducesTo_S192x1_S_d0_1 : S192x1.ReducesTo [0, 1] S_

variable [Facts]

def fn_part1 {F : FTy → Type} [FloatOps F] (main_arg6 : FVec F S192x1 .f32) (main_arg7 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S192x1 .f32 := Host.absf main_arg6
  let main_cst_6 : FVec F S_ .f32 := constant S_ .f32 0x7F800000#32
  let main_v20 : FVec F S192x1 .f32 := broadcastInDim S192x1 ![] bcast_S_S192x1 main_cst_6
  let main_v21 : IVec S192x1 1 := cmpf .olt main_v19 main_v20
  let main_c_7 : IVec S_ 1 := constantI S_ 1 1#1
  let main_v22 : IVec S_ 1 := (fun x v => Host.reduce IntOp.andi x v reducesTo_S192x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S50000x192 .f32) (main_arg1 : IVec S400000 32) (main_arg2 : IVec S400000 32) (main_arg3 : FVec F S192x192 .f32) (main_arg4 : FVec F S192 .f32) (main_arg5 : FVec F S1 .f32) (main_arg6 : FVec F S192x1 .f32) (main_arg7 : FVec F S1 .f32) : IVec S_ 1 :=
  let main_v0 : FVec F S50000x192 .f32 := Host.absf main_arg0
  let main_cst : FVec F S_ .f32 := constant S_ .f32 0x7F800000#32
  let main_v1 : FVec F S50000x192 .f32 := broadcastInDim S50000x192 ![] bcast_S_S50000x192 main_cst
  let main_v2 : IVec S50000x192 1 := cmpf .olt main_v0 main_v1
  let main_c : IVec S_ 1 := constantI S_ 1 1#1
  let main_v3 : IVec S_ 1 := (fun x v => Host.reduce IntOp.andi x v reducesTo_S50000x192_S_d0_1 h_S_) main_v2 main_c
  let main_v4 : FVec F S192x192 .f32 := Host.absf main_arg3
  let main_cst_0 : FVec F S_ .f32 := constant S_ .f32 0x7F800000#32
  let main_v5 : FVec F S192x192 .f32 := broadcastInDim S192x192 ![] bcast_S_S192x192 main_cst_0
  let main_v6 : IVec S192x192 1 := cmpf .olt main_v4 main_v5
  let main_c_1 : IVec S_ 1 := constantI S_ 1 1#1
  let main_v7 : IVec S_ 1 := (fun x v => Host.reduce IntOp.andi x v reducesTo_S192x192_S_d0_1 h_S_) main_v6 main_c_1
  let main_v8 : IVec S_ 1 := andi main_v3 main_v7
  let main_v9 : FVec F S192 .f32 := Host.absf main_arg4
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg6 main_arg7 main_v13 main_v16
-- ==== Kernel.lean ====
abbrev S50000x192 : Shape := ⟨2, ![50000, 192]⟩
abbrev S400000 : Shape := ⟨1, ![400000]⟩
abbrev S192x192 : Shape := ⟨2, ![192, 192]⟩
abbrev S192 : Shape := ⟨1, ![192]⟩
abbrev S1 : Shape := ⟨1, ![1]⟩
abbrev S192x1 : Shape := ⟨2, ![192, 1]⟩
abbrev S_ : Shape := ⟨0, ![]⟩
abbrev S400000x1 : Shape := ⟨2, ![400000, 1]⟩
abbrev S400000x192 : Shape := ⟨2, ![400000, 192]⟩
abbrev S1x192 : Shape := ⟨2, ![1, 192]⟩
abbrev S1x1 : Shape := ⟨2, ![1, 1]⟩
abbrev S4000x192 : Shape := ⟨2, ![4000, 192]⟩
abbrev S4000x1 : Shape := ⟨2, ![4000, 1]⟩

abbrev nBuf : Space → Nat
  | .hbm => 36
  | .vmem => 13
  | .smem => 0
  | _ => 0

abbrev bufTy : (tb : Table) → Fin (tcTables nBuf tb) → BufTy
  | .hbm, ⟨0, _⟩ => ⟨S50000x192, .f32⟩
  | .hbm, ⟨1, _⟩ => ⟨S400000, .i32⟩
  | .hbm, ⟨2, _⟩ => ⟨S400000, .i32⟩
  | .hbm, ⟨3, _⟩ => ⟨S192x192, .f32⟩
  | .hbm, ⟨4, _⟩ => ⟨S192, .f32⟩
  | .hbm, ⟨5, _⟩ => ⟨S1, .f32⟩
  | .hbm, ⟨6, _⟩ => ⟨S192x1, .f32⟩
  | .hbm, ⟨7, _⟩ => ⟨S1, .f32⟩
  | .hbm, ⟨8, _⟩ => ⟨S_, .i32⟩
  | .hbm, ⟨9, _⟩ => ⟨S400000, .i32⟩
  | .hbm, ⟨10, _⟩ => ⟨S400000, .i1⟩
  | .hbm, ⟨11, _⟩ => ⟨S_, .i32⟩
  | .hbm, ⟨12, _⟩ => ⟨S400000, .i32⟩
  | .hbm, ⟨13, _⟩ => ⟨S400000, .i32⟩
  | .hbm, ⟨14, _⟩ => ⟨S400000, .i32⟩
  | .hbm, ⟨15, _⟩ => ⟨S400000x1, .i32⟩
  | .hbm, ⟨16, _⟩ => ⟨S400000x192, .f32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x192, .f32⟩
  | .hbm, ⟨26, _⟩ => ⟨S400000x192, .f32⟩
  | .hbm, ⟨27, _⟩ => ⟨S1x192, .f32⟩
  | .hbm, ⟨28, _⟩ => ⟨S1x1, .f32⟩
  | .hbm, ⟨29, _⟩ => ⟨S1x1, .f32⟩
  | .hbm, ⟨30, _⟩ => ⟨S400000x192, .f32⟩
  | .hbm, ⟨31, _⟩ => ⟨S400000x1, .f32⟩
  | .hbm, ⟨32, _⟩ => ⟨S_, .f32⟩
  | .hbm, ⟨33, _⟩ => ⟨S50000x192, .f32⟩
  | .hbm, ⟨34, _⟩ => ⟨S400000x1, .i32⟩
  | .hbm, ⟨35, _⟩ => ⟨S50000x192, .f32⟩
  | .local _ .vmem, ⟨0, _⟩ => ⟨S4000x192, .f32⟩
  | .local _ .vmem, ⟨1, _⟩ => ⟨S4000x192, .f32⟩
  | .local _ .vmem, ⟨2, _⟩ => ⟨S4000x192, .f32⟩
  | .local _ .vmem, ⟨3, _⟩ => ⟨S4000x192, .f32⟩
  | .local _ .vmem, ⟨4, _⟩ => ⟨S192x192, .f32⟩
  | .local _ .vmem, ⟨5, _⟩ => ⟨S1x192, .f32⟩
  | .local _ .vmem, ⟨6, _⟩ => ⟨S1x1, .f32⟩
  | .local _ .vmem, ⟨7, _⟩ => ⟨S192x1, .f32⟩
  | .local _ .vmem, ⟨8, _⟩ => ⟨S1x1, .f32⟩
  | .local _ .vmem, ⟨9, _⟩ => ⟨S4000x192, .f32⟩
  | .local _ .vmem, ⟨10, _⟩ => ⟨S4000x192, .f32⟩
  | .local _ .vmem, ⟨11, _⟩ => ⟨S4000x1, .f32⟩
  | .local _ .vmem, ⟨12, _⟩ => ⟨S4000x1, .f32⟩
  | _, _ => ⟨S50000x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18_0 : Ref sig .tc := ⟨.hbm, 30, rfl⟩
abbrev main_v18_1 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  shapeCasts_S192_S1x192 : S192.ShapeCasts S1x192
  shapeCasts_S1_S1x1 : S1.ShapeCasts S1x1
  inb_S4000x192_S4000x192_0_0 : ∀ a, (![0, 0] : Fin 2 → Nat) a + S4000x192.size a ≤ S4000x192.size a
  h_S4000x192 : 0 < S4000x192.numel
  shapeCasts_S4000x192_S4000x192 : S4000x192.ShapeCasts S4000x192
  bitsLt_bf16_f32 : FTy.bits .bf16 < FTy.bits .f32
  inb_S192x192_S192x192_0_0 : ∀ a, (![0, 0] : Fin 2 → Nat) a + S192x192.size a ≤ S192x192.size a
  h_S192x192 : 0 < S192x192.numel
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S4000x192 : S1x192.Broadcasts S4000x192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x192 : S1x1.Broadcasts S4000x192
  inb_S192x1_S192x1_0_0 : ∀ a, (![0, 0] : Fin 2 → Nat) a + S192x1.size a ≤ S192x1.size a
  h_S192x1 : 0 < S192x1.numel
  broadcasts_S1x1_S4000x1 : S1x1.Broadcasts S4000x1
  broadcasts_S4000x1_S4000x192 : S4000x1.Broadcasts S4000x192
  inb_S4000x1_S4000x1_0_0 : ∀ a, (![0, 0] : Fin 2 → Nat) a + S4000x1.size a ≤ S4000x1.size a
  h_S4000x1 : 0 < S4000x1.numel
  bcast_S_S50000x192 : S_.BroadcastsInDim S50000x192 (![] : Fin 0 → Fin S50000x192.rank)
  gather_S50000x192_S400000x1_S400000x192_1_0_n_n_0_1_1192_wf : GatherDims.WF S50000x192 S400000x1 S400000x192 [1] [0] [] [0] [] 1 ![1, 192]
  dot_S4000x192_S192x192_S4000x192_1_0_0_1_n_n_wf : DotDims.WF S4000x192 S192x192 S4000x192 [1] [0] [0] [1] [] []
  dot_S4000x192_S192x1_S4000x1_1_0_0_1_n_n_wf : DotDims.WF S4000x192 S192x1 S4000x1 [1] [0] [0] [1] [] []
  scatter_S50000x192_S400000x1_S400000x192_1_0_0_1_wf : ScatterDims.WF S50000x192 S400000x1 S400000x192 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x192.size a ≤ S400000x192.size a
  hwx0_0 : ∀ i : grid0.Coords, EltTy.bits .f32 = 32 ∨ (Rect.block (s := S400000x192) S4000x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x192.size a ≤ S400000x192.size a
  hwx0_1 : ∀ i : grid0.Coords, EltTy.bits .f32 = 32 ∨ (Rect.block (s := S400000x192) S4000x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x192.size a ≤ S192x192.size a
  hwx0_2 : ∀ i : grid0.Coords, EltTy.bits .f32 = 32 ∨ (Rect.block (s := S192x192) S192x192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x192.size a ≤ S1x192.size a
  hwx0_3 : ∀ i : grid0.Coords, EltTy.bits .f32 = 32 ∨ (Rect.block (s := S1x192) S1x192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x1.size a ≤ S192x1.size a
  hwx0_5 : ∀ i : grid0.Coords, EltTy.bits .f32 = 32 ∨ (Rect.block (s := S192x1) S192x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x192.size a ≤ S400000x192.size a
  hwx0_7 : ∀ i : grid0.Coords, EltTy.bits .f32 = 32 ∨ (Rect.block (s := S400000x192) S4000x192.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x1.size a ≤ S400000x1.size a
  hwx0_8 : ∀ i : grid0.Coords, EltTy.bits .f32 = 32 ∨ (Rect.block (s := S400000x1) S4000x1.size (cc0_transform_8 i) (hinb0_8 i)).WholeWords (EltTy.packing .f32)

variable [Facts₀]

def gather_S50000x192_S400000x1_S400000x192_1_0_n_n_0_1_1192 : GatherDims S50000x192 S400000x1 S400000x192 where
  offsetDims := [1]
  collapsedSliceDims := [0]
  operandBatchingDims := []
  startIndicesBatchingDims := []
  startIndexMap := [0]
  indexVectorDim := 1
  sliceSizes := ![1, 192]
  wf := gather_S50000x192_S400000x1_S400000x192_1_0_n_n_0_1_1192_wf
def dot_S4000x192_S192x192_S4000x192_1_0_0_1_n_n : DotDims S4000x192 S192x192 S4000x192 where
  lhsContracting := [1]
  rhsContracting := [0]
  lhsNonContracting := [0]
  rhsNonContracting := [1]
  lhsBatch := []
  rhsBatch := []
  wf := dot_S4000x192_S192x192_S4000x192_1_0_0_1_n_n_wf
def dot_S4000x192_S192x1_S4000x1_1_0_0_1_n_n : DotDims S4000x192 S192x1 S4000x1 where
  lhsContracting := [1]
  rhsContracting := [0]
  lhsNonContracting := [0]
  rhsNonContracting := [1]
  lhsBatch := []
  rhsBatch := []
  wf := dot_S4000x192_S192x1_S4000x1_1_0_0_1_n_n_wf
def scatter_S50000x192_S400000x1_S400000x192_1_0_0_1 : ScatterDims S50000x192 S400000x1 S400000x192 where
  updateWindowDims := [1]
  insertedWindowDims := [0]
  scatterDimsToOperandDims := [0]
  indexVectorDim := 1
  wf := scatter_S50000x192_S400000x1_S400000x192_1_0_0_1_wf

abbrev win0_0 : Pipeline.Window sig grid0 :=
  Pipeline.Window.ofSpec (Memref.whole main_v6) S4000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4000x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S192x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S192x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18_0) S4000x192.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v18_1) S4000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x192 : Shape := ⟨2, ![50000, 192]⟩
abbrev S400000 : Shape := ⟨1, ![400000]⟩
abbrev S192x192 : Shape := ⟨2, ![192, 192]⟩
abbrev S192 : Shape := ⟨1, ![192]⟩
abbrev S1 : Shape := ⟨1, ![1]⟩
abbrev S192x1 : Shape := ⟨2, ![192, 1]⟩
abbrev S_ : Shape := ⟨0, ![]⟩
abbrev S400000x1 : Shape := ⟨2, ![400000, 1]⟩
abbrev S400000x192 : Shape := ⟨2, ![400000, 192]⟩
abbrev S1x192 : Shape := ⟨2, ![1, 192]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S50000x192, .f32⟩
  | .hbm, ⟨1, _⟩ => ⟨S400000, .i32⟩
  | .hbm, ⟨2, _⟩ => ⟨S400000, .i32⟩
  | .hbm, ⟨3, _⟩ => ⟨S192x192, .f32⟩
  | .hbm, ⟨4, _⟩ => ⟨S192, .f32⟩
  | .hbm, ⟨5, _⟩ => ⟨S1, .f32⟩
  | .hbm, ⟨6, _⟩ => ⟨S192x1, .f32⟩
  | .hbm, ⟨7, _⟩ => ⟨S1, .f32⟩
  | .hbm, ⟨8, _⟩ => ⟨S_, .i32⟩
  | .hbm, ⟨9, _⟩ => ⟨S400000, .i32⟩
  | .hbm, ⟨10, _⟩ => ⟨S400000, .i1⟩
  | .hbm, ⟨11, _⟩ => ⟨S_, .i32⟩
  | .hbm, ⟨12, _⟩ => ⟨S400000, .i32⟩
  | .hbm, ⟨13, _⟩ => ⟨S400000, .i32⟩
  | .hbm, ⟨14, _⟩ => ⟨S400000, .i32⟩
  | .hbm, ⟨15, _⟩ => ⟨S400000x1, .i32⟩
  | .hbm, ⟨16, _⟩ => ⟨S400000x192, .f32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x192, .f32⟩
  | .hbm, ⟨26, _⟩ => ⟨S400000x192, .f32⟩
  | .hbm, ⟨27, _⟩ => ⟨S400000x192, .f32⟩
  | .hbm, ⟨28, _⟩ => ⟨S1x192, .f32⟩
  | .hbm, ⟨29, _⟩ => ⟨S400000x192, .f32⟩
  | .hbm, ⟨30, _⟩ => ⟨S400000x192, .f32⟩
  | .hbm, ⟨31, _⟩ => ⟨S_, .f32⟩
  | .hbm, ⟨32, _⟩ => ⟨S400000x192, .f32⟩
  | .hbm, ⟨33, _⟩ => ⟨S400000x192, .i1⟩
  | .hbm, ⟨34, _⟩ => ⟨S1x1, .f32⟩
  | .hbm, ⟨35, _⟩ => ⟨S400000x192, .f32⟩
  | .hbm, ⟨36, _⟩ => ⟨S400000x192, .f32⟩
  | .hbm, ⟨37, _⟩ => ⟨S400000x192, .f32⟩
  | .hbm, ⟨38, _⟩ => ⟨S400000x1, .f32⟩
  | .hbm, ⟨39, _⟩ => ⟨S1x1, .f32⟩
  | .hbm, ⟨40, _⟩ => ⟨S400000x1, .f32⟩
  | .hbm, ⟨41, _⟩ => ⟨S400000x1, .f32⟩
  | .hbm, ⟨42, _⟩ => ⟨S400000x1, .f32⟩
  | .hbm, ⟨43, _⟩ => ⟨S400000x192, .f32⟩
  | .hbm, ⟨44, _⟩ => ⟨S400000x192, .f32⟩
  | .hbm, ⟨45, _⟩ => ⟨S_, .f32⟩
  | .hbm, ⟨46, _⟩ => ⟨S50000x192, .f32⟩
  | .hbm, ⟨47, _⟩ => ⟨S400000x1, .i32⟩
  | .hbm, ⟨48, _⟩ => ⟨S50000x192, .f32⟩
  | _, _ => ⟨S50000x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S192_S1x192_1 : S192.BroadcastsInDim S1x192 (![1] : Fin 1 → Fin S1x192.rank)
  bcast_S1x192_S400000x192_0_1 : S1x192.BroadcastsInDim S400000x192 (![0, 1] : Fin 2 → Fin S400000x192.rank)
  bcast_S_S400000x192 : S_.BroadcastsInDim S400000x192 (![] : Fin 0 → Fin S400000x192.rank)
  bcast_S1_S1x1_1 : S1.BroadcastsInDim S1x1 (![1] : Fin 1 → Fin S1x1.rank)
  bcast_S1x1_S400000x192_0_1 : S1x1.BroadcastsInDim S400000x192 (![0, 1] : Fin 2 → Fin S400000x192.rank)
  bcast_S1x1_S400000x1_0_1 : S1x1.BroadcastsInDim S400000x1 (![0, 1] : Fin 2 → Fin S400000x1.rank)
  bcast_S400000x1_S400000x192_0_1 : S400000x1.BroadcastsInDim S400000x192 (![0, 1] : Fin 2 → Fin S400000x192.rank)
  bcast_S_S50000x192 : S_.BroadcastsInDim S50000x192 (![] : Fin 0 → Fin S50000x192.rank)
  gather_S50000x192_S400000x1_S400000x192_1_0_n_n_0_1_1192_wf : GatherDims.WF S50000x192 S400000x1 S400000x192 [1] [0] [] [0] [] 1 ![1, 192]
  dot_S400000x192_S192x192_S400000x192_1_0_0_1_n_n_wf : DotDims.WF S400000x192 S192x192 S400000x192 [1] [0] [0] [1] [] []
  dot_S400000x192_S192x1_S400000x1_1_0_0_1_n_n_wf : DotDims.WF S400000x192 S192x1 S400000x1 [1] [0] [0] [1] [] []
  scatter_S50000x192_S400000x1_S400000x192_1_0_0_1_wf : ScatterDims.WF S50000x192 S400000x1 S400000x192 [1] [0] [0] 1

variable [Facts₀]

def gather_S50000x192_S400000x1_S400000x192_1_0_n_n_0_1_1192 : GatherDims S50000x192 S400000x1 S400000x192 where
  offsetDims := [1]
  collapsedSliceDims := [0]
  operandBatchingDims := []
  startIndicesBatchingDims := []
  startIndexMap := [0]
  indexVectorDim := 1
  sliceSizes := ![1, 192]
  wf := gather_S50000x192_S400000x1_S400000x192_1_0_n_n_0_1_1192_wf
def dot_S400000x192_S192x192_S400000x192_1_0_0_1_n_n : DotDims S400000x192 S192x192 S400000x192 where
  lhsContracting := [1]
  rhsContracting := [0]
  lhsNonContracting := [0]
  rhsNonContracting := [1]
  lhsBatch := []
  rhsBatch := []
  wf := dot_S400000x192_S192x192_S400000x192_1_0_0_1_n_n_wf
def dot_S400000x192_S192x1_S400000x1_1_0_0_1_n_n : DotDims S400000x192 S192x1 S400000x1 where
  lhsContracting := [1]
  rhsContracting := [0]
  lhsNonContracting := [0]
  rhsNonContracting := [1]
  lhsBatch := []
  rhsBatch := []
  wf := dot_S400000x192_S192x1_S400000x1_1_0_0_1_n_n_wf
def scatter_S50000x192_S400000x1_S400000x192_1_0_0_1 : ScatterDims S50000x192 S400000x1 S400000x192 where
  updateWindowDims := [1]
  insertedWindowDims := [0]
  scatterDimsToOperandDims := [0]
  indexVectorDim := 1
  wf := scatter_S50000x192_S400000x1_S400000x192_1_0_0_1_wf

class Facts : Prop extends Facts₀ where

variable [Facts]
-- ==== Proof.GateSpec.lean ====
/-
  The edge gate of one graph edge, as a function of the edge's feature row.

  An edge carries a row u of 192 features (the product of its two endpoint rows). A first affine map
  u ↦ u·W1 + b1 gives 192 hidden pre-activations; each is kept where it is ≥ 0 and multiplied by the slope
  al otherwise (a leaky rectifier with a learned slope); a second affine map to ONE number, followed by the
  hyperbolic tangent, gives the edge's gate. Everything is over the extended reals: sums are finite sums,
  products and sums the exact ones, and no rearrangement of a sum is used anywhere, so no finiteness is needed.
-/
import Idealize.ShloMosaic.Lib.ValueIdx
import Idealize.ShloMosaic.PureOps.Ideal.Laws

noncomputable section

namespace Cert.EdgeGate

open Idealize.ShloMosaic

/-- The zero against which a pre-activation is compared: the value of the all-zero f32 word. -/
abbrev zero32 : EReal := Ideal.ofBits .f32 0x00000000#32

/-- Pre-activation `j` of an edge with feature row `u`: the dot product of `u` with column `j` of `W1`, plus the bias. -/
def pre (u : Fin 192 → EReal) (W1 : Fin 192 → Fin 192 → EReal) (b1 : Fin 192 → EReal) (j : Fin 192) : EReal :=
  (∑ k : Fin 192, u k * W1 k j) + b1 j

/-- Hidden unit `j`: the pre-activation where it is at least zero, the slope times it elsewhere. -/
def hidden (u : Fin 192 → EReal) (W1 : Fin 192 → Fin 192 → EReal) (b1 : Fin 192 → EReal) (al : EReal) (j : Fin 192) : EReal :=
  Scalar.select (FloatOps.cmpf (F := Ideal) (φ := .f32) .oge (pre u W1 b1 j) zero32) (pre u W1 b1 j) (al * pre u W1 b1 j)

/-- The edge's gate: tanh of the second affine map of the hidden units. -/
def gate (u : Fin 192 → EReal) (W1 : Fin 192 → Fin 192 → EReal) (b1 : Fin 192 → EReal) (al : EReal)
    (W2 : Fin 192 → EReal) (b2 : EReal) : EReal :=
  Ideal.tanh ((∑ k : Fin 192, hidden u W1 b1 al k * W2 k) + b2)

end Cert.EdgeGate

end
-- ==== Proof.KernelRow.lean ====
/-
  The kernel body's two stored values, read at one entry of a block of 4000 edges.

  The body multiplies the block of edge rows by W1 on the matrix unit into a zero accumulator, adds the bias row,
  rectifies with the slope, multiplies by W2 into a zero accumulator, adds the second bias and applies tanh: at row p
  that is the edge gate of row p of the block. The other stored value is the source row times that gate.
  At the ideal values a matrix product into the zero accumulator is the plain sum over the contracted axis, a change
  of float format is the identity, and a broadcast reads its operand's one row, one column or one entry.
-/
import proofs.«125279_j8710193676516_1_alg».proof.Proof.Gen.KernelIdeal.Skeleton
import proofs.«125279_j8710193676516_1_alg».proof.Proof.GateSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx

/-! ## The first matrix product: rows of the block against the columns of W1 -/

theorem lhsA_0 (i : S4000x192.Idx) (q : dot_S4000x192_S192x192_S4000x192_1_0_0_1_n_n.contr.Idx) :
    (dot_S4000x192_S192x192_S4000x192_1_0_0_1_n_n.lhsIdx i q 0).val = (i 0).val := by
  unfold DotDims.lhsIdx
  rw [dif_neg (show ¬(0 : Fin S4000x192.rank) ∈ dot_S4000x192_S192x192_S4000x192_1_0_0_1_n_n.lhsBatch by decide), dif_pos (show (0 : Fin S4000x192.rank) ∈ dot_S4000x192_S192x192_S4000x192_1_0_0_1_n_n.lhsNonContracting by decide)]
  rfl
theorem lhsA_1 (i : S4000x192.Idx) (q : dot_S4000x192_S192x192_S4000x192_1_0_0_1_n_n.contr.Idx) :
    (dot_S4000x192_S192x192_S4000x192_1_0_0_1_n_n.lhsIdx i q 1).val = (q ⟨0, by decide⟩).val :=
  dot_S4000x192_S192x192_S4000x192_1_0_0_1_n_n.lhsIdx_val_of_single rfl i q
theorem rhsA_0 (i : S4000x192.Idx) (q : dot_S4000x192_S192x192_S4000x192_1_0_0_1_n_n.contr.Idx) :
    (dot_S4000x192_S192x192_S4000x192_1_0_0_1_n_n.rhsIdx i q 0).val = (q ⟨0, by decide⟩).val :=
  dot_S4000x192_S192x192_S4000x192_1_0_0_1_n_n.rhsIdx_val_of_single rfl i q
theorem rhsA_1 (i : S4000x192.Idx) (q : dot_S4000x192_S192x192_S4000x192_1_0_0_1_n_n.contr.Idx) :
    (dot_S4000x192_S192x192_S4000x192_1_0_0_1_n_n.rhsIdx i q 1).val = (i 1).val := by
  unfold DotDims.rhsIdx
  rw [dif_neg (show ¬(1 : Fin S192x192.rank) ∈ dot_S4000x192_S192x192_S4000x192_1_0_0_1_n_n.rhsBatch by decide), dif_pos (show (1 : Fin S192x192.rank) ∈ dot_S4000x192_S192x192_S4000x192_1_0_0_1_n_n.rhsNonContracting by decide)]
  rfl

/-- Entry (p, j) of the block's product with W1 into the zero accumulator: the dot product of row p with column j. -/
theorem mmA_apply {φ₁ φ₂ : FTy} (l : FVec Ideal S4000x192 φ₁) (r : FVec Ideal S192x192 φ₂) (p : Fin 4000) (j : Fin 192) :
    matmul dot_S4000x192_S192x192_S4000x192_1_0_0_1_n_n none l r (constant S4000x192 .f32 0x00000000#32) (ix2 p j)
      = ∑ k : Fin 192, l (ix2 p k) * r (ix2 k j) := by
  simp only [matmul]
  rw [Ideal.matmul_constant_zero_apply, ← Equiv.sum_comp (ValueIdx.contrEquiv1 dot_S4000x192_S192x192_S4000x192_1_0_0_1_n_n 192 rfl rfl).symm]
  refine Finset.sum_congr rfl fun k _ => ?_
  have hk := ValueIdx.contrEquiv1_symm_val dot_S4000x192_S192x192_S4000x192_1_0_0_1_n_n 192 rfl rfl k
  have el : dot_S4000x192_S192x192_S4000x192_1_0_0_1_n_n.lhsIdx (ix2 p j) ((ValueIdx.contrEquiv1 dot_S4000x192_S192x192_S4000x192_1_0_0_1_n_n 192 rfl rfl).symm k) = ix2 p k := funext fun a => Fin.ext (by
    match a with
    | ⟨0, _⟩ => exact lhsA_0 _ _
    | ⟨1, _⟩ => exact (lhsA_1 _ _).trans hk)
  have er : dot_S4000x192_S192x192_S4000x192_1_0_0_1_n_n.rhsIdx (ix2 p j) ((ValueIdx.contrEquiv1 dot_S4000x192_S192x192_S4000x192_1_0_0_1_n_n 192 rfl rfl).symm k) = ix2 k j := funext fun a => Fin.ext (by
    match a with
    | ⟨0, _⟩ => exact (rhsA_0 _ _).trans hk
    | ⟨1, _⟩ => exact rhsA_1 _ _)
  rw [el, er]

/-! ## The second matrix product: rectified rows against the one column of W2 -/

theorem lhsB_0 (i : S4000x1.Idx) (q : dot_S4000x192_S192x1_S4000x1_1_0_0_1_n_n.contr.Idx) :
    (dot_S4000x192_S192x1_S4000x1_1_0_0_1_n_n.lhsIdx i q 0).val = (i 0).val := by
  unfold DotDims.lhsIdx
  rw [dif_neg (show ¬(0 : Fin S4000x192.rank) ∈ dot_S4000x192_S192x1_S4000x1_1_0_0_1_n_n.lhsBatch by decide), dif_pos (show (0 : Fin S4000x192.rank) ∈ dot_S4000x192_S192x1_S4000x1_1_0_0_1_n_n.lhsNonContracting by decide)]
  rfl
theorem lhsB_1 (i : S4000x1.Idx) (q : dot_S4000x192_S192x1_S4000x1_1_0_0_1_n_n.contr.Idx) :
    (dot_S4000x192_S192x1_S4000x1_1_0_0_1_n_n.lhsIdx i q 1).val = (q ⟨0, by decide⟩).val :=
  dot_S4000x192_S192x1_S4000x1_1_0_0_1_n_n.lhsIdx_val_of_single rfl i q
theorem rhsB_0 (i : S4000x1.Idx) (q : dot_S4000x192_S192x1_S4000x1_1_0_0_1_n_n.contr.Idx) :
    (dot_S4000x192_S192x1_S4000x1_1_0_0_1_n_n.rhsIdx i q 0).val = (q ⟨0, by decide⟩).val :=
  dot_S4000x192_S192x1_S4000x1_1_0_0_1_n_n.rhsIdx_val_of_single rfl i q
theorem rhsB_1 (i : S4000x1.Idx) (q : dot_S4000x192_S192x1_S4000x1_1_0_0_1_n_n.contr.Idx) :
    (dot_S4000x192_S192x1_S4000x1_1_0_0_1_n_n.rhsIdx i q 1).val = (i 1).val := by
  unfold DotDims.rhsIdx
  rw [dif_neg (show ¬(1 : Fin S192x1.rank) ∈ dot_S4000x192_S192x1_S4000x1_1_0_0_1_n_n.rhsBatch by decide), dif_pos (show (1 : Fin S192x1.rank) ∈ dot_S4000x192_S192x1_S4000x1_1_0_0_1_n_n.rhsNonContracting by decide)]
  rfl

/-- Entry (p, 0) of the rectified block's product with W2 into the zero accumulator: the dot product of row p with W2's column. -/
theorem mmB_apply {φ₁ φ₂ : FTy} (l : FVec Ideal S4000x192 φ₁) (r : FVec Ideal S192x1 φ₂) (p : Fin 4000) (q : Fin 1) :
    matmul dot_S4000x192_S192x1_S4000x1_1_0_0_1_n_n none l r (constant S4000x1 .f32 0x00000000#32) (ix2 p q)
      = ∑ k : Fin 192, l (ix2 p k) * r (ix2 k q) := by
  simp only [matmul]
  rw [Ideal.matmul_constant_zero_apply, ← Equiv.sum_comp (ValueIdx.contrEquiv1 dot_S4000x192_S192x1_S4000x1_1_0_0_1_n_n 192 rfl rfl).symm]
  refine Finset.sum_congr rfl fun k _ => ?_
  have hk := ValueIdx.contrEquiv1_symm_val dot_S4000x192_S192x1_S4000x1_1_0_0_1_n_n 192 rfl rfl k
  have el : dot_S4000x192_S192x1_S4000x1_1_0_0_1_n_n.lhsIdx (ix2 p q) ((ValueIdx.contrEquiv1 dot_S4000x192_S192x1_S4000x1_1_0_0_1_n_n 192 rfl rfl).symm k) = ix2 p k := funext fun a => Fin.ext (by
    match a with
    | ⟨0, _⟩ => exact lhsB_0 _ _
    | ⟨1, _⟩ => exact (lhsB_1 _ _).trans hk)
  have er : dot_S4000x192_S192x1_S4000x1_1_0_0_1_n_n.rhsIdx (ix2 p q) ((ValueIdx.contrEquiv1 dot_S4000x192_S192x1_S4000x1_1_0_0_1_n_n 192 rfl rfl).symm k) = ix2 k q := funext fun a => Fin.ext (by
    match a with
    | ⟨0, _⟩ => exact (rhsB_0 _ _).trans hk
    | ⟨1, _⟩ => exact rhsB_1 _ _)
  rw [el, er]

/-! ## The body's vectors, named -/

/-- The block's pre-activations: the product with W1 plus the bias row, as the body computes them. -/
abbrev preVec (x1 : Vec Ideal S4000x192 .f32) (x2 : Vec Ideal S192x192 .f32) (x3 : Vec Ideal S1x192 .f32) : FVec Ideal S4000x192 .f32 :=
  addf (matmul dot_S4000x192_S192x192_S4000x192_1_0_0_1_n_n none
      (truncf .bf16 (shapeCast S4000x192 x1 Facts₀.shapeCasts_S4000x192_S4000x192) Facts₀.bitsLt_bf16_f32)
      (truncf .bf16 x2 Facts₀.bitsLt_bf16_f32) (constant S4000x192 .f32 0x00000000#32))
    (broadcastTo S4000x192 (shapeCast S1x192 x3 Facts₀.shapeCasts_S1x192_S1x192) Facts₀.broadcasts_S1x192_S4000x192)

/-- The block's hidden units: each pre-activation kept where it is at least zero, multiplied by the slope elsewhere. -/
abbrev hidVec (x1 : Vec Ideal S4000x192 .f32) (x2 : Vec Ideal S192x192 .f32) (x3 : Vec Ideal S1x192 .f32) (x4 : Vec Ideal S1x1 .f32) : FVec Ideal S4000x192 .f32 :=
  select (cmpf .oge (preVec x1 x2 x3) (broadcast S4000x192 (Scalar.ofBits (F := Ideal) .f32 0x00000000#32)))
    (preVec x1 x2 x3)
    (mulf (broadcastTo S4000x192 (shapeCast S1x1 x4 Facts₀.shapeCasts_S1x1_S1x1) Facts₀.broadcasts_S1x1_S4000x192) (preVec x1 x2 x3))

/-- The stored gate column is tanh of the second affine map of the hidden units. -/
theorem pay1_eq (x1 : Vec Ideal S4000x192 .f32) (x2 : Vec Ideal S192x192 .f32) (x3 : Vec Ideal S1x192 .f32) (x4 : Vec Ideal S1x1 .f32)
    (x5 : Vec Ideal S192x1 .f32) (x6 : Vec Ideal S1x1 .f32) :
    k0_pay1 (F := Ideal) x1 x2 x3 x4 x5 x6
      = tanh (addf (matmul dot_S4000x192_S192x1_S4000x1_1_0_0_1_n_n none
            (truncf .bf16 (hidVec x1 x2 x3 x4) Facts₀.bitsLt_bf16_f32) (truncf .bf16 x5 Facts₀.bitsLt_bf16_f32)
            (constant S4000x1 .f32 0x00000000#32))
          (broadcastTo S4000x1 (shapeCast S1x1 x6 Facts₀.shapeCasts_S1x1_S1x1) Facts₀.broadcasts_S1x1_S4000x1)) := rfl

/-! ## Broadcasts of the one-entry and one-column operands -/

/-- A [1, 1] array broadcast to [a, b] reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- An [a, 1] column broadcast across the columns of [a, b] reads, at (p, q), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The body's values at an entry -/

/-- Pre-activation (p, j) of the block is pre-activation j of row p. -/
theorem preVec_apply (x1 : Vec Ideal S4000x192 .f32) (x2 : Vec Ideal S192x192 .f32) (x3 : Vec Ideal S1x192 .f32) (p : Fin 4000) (j : Fin 192) :
    preVec x1 x2 x3 (ix2 p j)
      = EdgeGate.pre (fun k => x1 (ix2 p k)) (fun k j => x2 (ix2 k j)) (fun j => x3 (ix2 (0 : Fin 1) j)) j := by
  unfold preVec
  rw [addf_apply, mmA_apply, broadcastTo_1b_ab_apply, shapeCast_self, shapeCast_self]
  rfl

/-- Hidden unit (p, j) of the block is hidden unit j of row p. -/
theorem hidVec_apply (x1 : Vec Ideal S4000x192 .f32) (x2 : Vec Ideal S192x192 .f32) (x3 : Vec Ideal S1x192 .f32) (x4 : Vec Ideal S1x1 .f32)
    (p : Fin 4000) (j : Fin 192) :
    hidVec x1 x2 x3 x4 (ix2 p j)
      = EdgeGate.hidden (fun k => x1 (ix2 p k)) (fun k j => x2 (ix2 k j)) (fun j => x3 (ix2 (0 : Fin 1) j)) (x4 (ix2 (0 : Fin 1) (0 : Fin 1))) j := by
  unfold hidVec EdgeGate.hidden
  rw [select_apply, cmpf_apply, mulf_apply, broadcastTo_11_ab_apply, shapeCast_self, preVec_apply]
  rfl

/-- THE GATE COLUMN AT ROW p: the edge gate of row p of the block. -/
theorem pay1_apply (x1 : Vec Ideal S4000x192 .f32) (x2 : Vec Ideal S192x192 .f32) (x3 : Vec Ideal S1x192 .f32) (x4 : Vec Ideal S1x1 .f32)
    (x5 : Vec Ideal S192x1 .f32) (x6 : Vec Ideal S1x1 .f32) (p : Fin 4000) (q : Fin 1) :
    k0_pay1 (F := Ideal) x1 x2 x3 x4 x5 x6 (ix2 p q)
      = EdgeGate.gate (fun k => x1 (ix2 p k)) (fun k j => x2 (ix2 k j)) (fun j => x3 (ix2 (0 : Fin 1) j)) (x4 (ix2 (0 : Fin 1) (0 : Fin 1)))
          (fun k => x5 (ix2 k (0 : Fin 1))) (x6 (ix2 (0 : Fin 1) (0 : Fin 1))) := by
  obtain rfl : q = 0 := Subsingleton.elim _ _
  rw [pay1_eq]
  unfold EdgeGate.gate
  show Ideal.tanh (_ + _) = _
  rw [mmB_apply, broadcastTo_11_ab_apply, shapeCast_self]
  refine congrArg (fun s => Ideal.tanh (s + _)) (Finset.sum_congr rfl fun k _ => ?_)
  show hidVec x1 x2 x3 x4 (ix2 p k) * _ = _
  rw [hidVec_apply]
  rfl

/-- THE MESSAGE BLOCK AT (p, j): the source row's entry times the gate of row p. -/
theorem pay2_apply (x1 : Vec Ideal S4000x192 .f32) (x2 : Vec Ideal S192x192 .f32) (x3 : Vec Ideal S1x192 .f32) (x4 : Vec Ideal S1x1 .f32)
    (x5 : Vec Ideal S192x1 .f32) (x6 : Vec Ideal S1x1 .f32) (x0 : Vec Ideal S4000x192 .f32) (p : Fin 4000) (j : Fin 192) :
    k0_pay2 (F := Ideal) x1 x2 x3 x4 x5 x6 x0 (ix2 p j)
      = x0 (ix2 p j) * EdgeGate.gate (fun k => x1 (ix2 p k)) (fun k j => x2 (ix2 k j)) (fun j => x3 (ix2 (0 : Fin 1) j)) (x4 (ix2 (0 : Fin 1) (0 : Fin 1)))
          (fun k => x5 (ix2 k (0 : Fin 1))) (x6 (ix2 (0 : Fin 1) (0 : Fin 1))) := by
  unfold k0_pay2
  show (shapeCast S4000x192 x0 Facts₀.shapeCasts_S4000x192_S4000x192) (ix2 p j)
      * broadcastTo S4000x192 (k0_pay1 (F := Ideal) x1 x2 x3 x4 x5 x6) Facts₀.broadcasts_S4000x1_S4000x192 (ix2 p j) = _
  rw [shapeCast_self, broadcastTo_a1_ab_apply, pay1_apply]

end Cert.KernelIdeal.Row

end
-- ==== Proof.RefRow.lean ====
/-
  The reference's gate and message, read at one edge.

  The reference computes, for all 400000 edges at once, the same chain: the product of the edge-feature array with
  W1 plus the bias, the leaky rectifier, the product with W2 plus the second bias, tanh; and then the source rows
  times the gate. Read at edge r, every stage depends on row r of the edge features only, so the gate of edge r is
  the edge gate of that row, and the message at (r, j) is the source entry times it.
-/
import proofs.«125279_j8710193676516_1_alg».proof.Proof.Gen.ReferenceIdeal.Read
import proofs.«125279_j8710193676516_1_alg».proof.Proof.GateSpec
import Idealize.ShloMosaic.Lib.ValueIdx

noncomputable section

namespace Cert.ReferenceIdeal.RefRow

open Cert.ReferenceIdeal Cert.ReferenceIdeal.Gen Cert.ReferenceIdeal.Read Idealize.ShloMosaic Idealize.ShloMosaic.ValueIdx

variable (a0 : (⟨S50000x192, .f32⟩ : BufTy).Contents (Elt Ideal)) (a1 a2 : (⟨S400000, .i32⟩ : BufTy).Contents (Elt Ideal))
  (a3 : (⟨S192x192, .f32⟩ : BufTy).Contents (Elt Ideal)) (a4 : (⟨S192, .f32⟩ : BufTy).Contents (Elt Ideal))
  (a5 : (⟨S1, .f32⟩ : BufTy).Contents (Elt Ideal)) (a6 : (⟨S192x1, .f32⟩ : BufTy).Contents (Elt Ideal))
  (a7 : (⟨S1, .f32⟩ : BufTy).Contents (Elt Ideal))

/-- Pre-activation (r, j) of the reference is pre-activation j of row r of the edge features. -/
theorem pre_apply (r : Fin 400000) (j : Fin 192) :
    val_main_v18 (F := Ideal) a0 a1 a2 a3 a4 (ix2 r j)
      = EdgeGate.pre (fun k => val_main_v14 (F := Ideal) a0 a1 a2 (ix2 r k)) (fun k j => a3 (ix2 k j)) (fun j => a4 (ix1 j)) j := by
  rw [val_main_v18_apply, val_main_v15_apply, val_main_v17_apply, val_main_v16_apply]
  have el : ∀ k : Fin 192, lidx_main_v15 (ix2 r j) k = ix2 r k := fun k =>
    funext fun a => Fin.ext (by match a with | ⟨0, _⟩ => rfl | ⟨1, _⟩ => rfl)
  have er : ∀ k : Fin 192, ridx_main_v15 (ix2 r j) k = ix2 k j := fun k =>
    funext fun a => Fin.ext (by match a with | ⟨0, _⟩ => rfl | ⟨1, _⟩ => rfl)
  have eb : idx_main_v16 (idx_main_v17 (ix2 r j)) = ix1 j :=
    funext fun a => Fin.ext (by match a with | ⟨0, _⟩ => rfl)
  simp only [el, er, eb]
  rfl

/-- Hidden unit (r, j) of the reference is hidden unit j of row r. -/
theorem hidden_apply (r : Fin 400000) (j : Fin 192) :
    val_main_v24 (F := Ideal) a0 a1 a2 a3 a4 a5 (ix2 r j)
      = EdgeGate.hidden (fun k => val_main_v14 (F := Ideal) a0 a1 a2 (ix2 r k)) (fun k j => a3 (ix2 k j)) (fun j => a4 (ix1 j)) (a5 (ix1 (0 : Fin 1))) j := by
  rw [val_main_v24_apply, val_main_v20_apply, val_main_v23_apply, val_main_v22_apply, val_main_v21_apply, val_main_v19_apply,
    pre_apply]
  have ea : idx_main_v21 (idx_main_v22 (ix2 r j)) = ix1 (0 : Fin 1) :=
    funext fun a => Fin.ext (by match a with | ⟨0, _⟩ => rfl)
  rw [ea]
  rfl

/-- THE REFERENCE'S GATE AT EDGE r: the edge gate of row r of the edge features. -/
theorem gate_apply (r : Fin 400000) (q : Fin 1) :
    val_main_v29 (F := Ideal) a0 a1 a2 a3 a4 a5 a6 a7 (ix2 r q)
      = EdgeGate.gate (fun k => val_main_v14 (F := Ideal) a0 a1 a2 (ix2 r k)) (fun k j => a3 (ix2 k j)) (fun j => a4 (ix1 j)) (a5 (ix1 (0 : Fin 1)))
          (fun k => a6 (ix2 k (0 : Fin 1))) (a7 (ix1 (0 : Fin 1))) := by
  obtain rfl : q = 0 := Subsingleton.elim _ _
  rw [val_main_v29_apply, val_main_v28_apply, val_main_v25_apply, val_main_v27_apply, val_main_v26_apply]
  have el : ∀ k : Fin 192, lidx_main_v25 (ix2 r (0 : Fin 1)) k = ix2 r k := fun k =>
    funext fun a => Fin.ext (by match a with | ⟨0, _⟩ => rfl | ⟨1, _⟩ => rfl)
  have er : ∀ k : Fin 192, ridx_main_v25 (ix2 r (0 : Fin 1)) k = ix2 k (0 : Fin 1) := fun k =>
    funext fun a => Fin.ext (by match a with | ⟨0, _⟩ => rfl | ⟨1, _⟩ => rfl)
  have eb : idx_main_v26 (idx_main_v27 (ix2 r (0 : Fin 1))) = ix1 (0 : Fin 1) :=
    funext fun a => Fin.ext (by match a with | ⟨0, _⟩ => rfl)
  simp only [el, er, eb, hidden_apply]
  rfl

/-- THE REFERENCE'S MESSAGE AT (r, j): the source row's entry times the gate of edge r. -/
theorem message_apply (r : Fin 400000) (j : Fin 192) :
    val_main_v31 (F := Ideal) a0 a1 a2 a3 a4 a5 a6 a7 (ix2 r j)
      = val_main_v6 (F := Ideal) a0 a1 (ix2 r j) * val_main_v29 (F := Ideal) a0 a1 a2 a3 a4 a5 a6 a7 (ix2 r (0 : Fin 1)) := by
  rw [val_main_v31_apply, val_main_v30_apply]
  have e : idx_main_v30 (ix2 r j) = ix2 r (0 : Fin 1) :=
    funext fun a => Fin.ext (by match a with | ⟨0, _⟩ => rfl | ⟨1, _⟩ => rfl)
  rw [e]
  rfl

end Cert.ReferenceIdeal.RefRow

end
-- ==== Proof.KernelArrays.lean ====
/-
  The kernel's two output arrays after the run, as whole-array functions of the arguments.

  Before the launch the host gathers the source rows h[src] and the destination rows h[dst], multiplies them into the
  edge features, and casts the two biases and the slope to rows. The launch walks the 400000 edges in 100 blocks of
  4000: at point t the blocks of the source rows and of the edge features are rows 4000 t … 4000 t + 3999, the
  weights and biases are whole. So what point t writes back is rows 4000 t … of the gate column (and of the message
  array), computed row by row from the same rows of the edge features as the reference computes them; the 100 blocks
  tile the arrays, so each array ends as the reference's stage.
-/
import proofs.«125279_j8710193676516_1_alg».proof.Proof.Gen.KernelIdeal.Frame
import proofs.«125279_j8710193676516_1_alg».proof.Proof.KernelRow
import proofs.«125279_j8710193676516_1_alg».proof.Proof.RefRow
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ)

/-! ## The arguments, and the reference's stages of them -/

abbrev h (c : Dev nD) : S50000x192.Idx → EReal := m ((c.tc : Thread nD τ).loc main_arg0)
abbrev src (c : Dev nD) : S400000.Idx → BitVec 32 := m ((c.tc : Thread nD τ).loc main_arg1)
abbrev dst (c : Dev nD) : S400000.Idx → BitVec 32 := m ((c.tc : Thread nD τ).loc main_arg2)
abbrev W1 (c : Dev nD) : S192x192.Idx → EReal := m ((c.tc : Thread nD τ).loc main_arg3)
abbrev b1 (c : Dev nD) : S192.Idx → EReal := m ((c.tc : Thread nD τ).loc main_arg4)
abbrev al (c : Dev nD) : S1.Idx → EReal := m ((c.tc : Thread nD τ).loc main_arg5)
abbrev W2 (c : Dev nD) : S192x1.Idx → EReal := m ((c.tc : Thread nD τ).loc main_arg6)
abbrev b2 (c : Dev nD) : S1.Idx → EReal := m ((c.tc : Thread nD τ).loc main_arg7)

/-- The gathered source rows, as the reference's stage. -/
abbrev srcRows (c : Dev nD) : S400000x192.Idx → EReal :=
  Cert.ReferenceIdeal.Read.val_main_v6 (F := Ideal) (h m c) (src m c)
/-- The edge features (destination rows times source rows), as the reference's stage. -/
abbrev feat (c : Dev nD) : S400000x192.Idx → EReal :=
  Cert.ReferenceIdeal.Read.val_main_v14 (F := Ideal) (h m c) (src m c) (dst m c)
/-- The gate column, as the reference's stage. -/
abbrev gateCol (c : Dev nD) : S400000x1.Idx → EReal :=
  Cert.ReferenceIdeal.Read.val_main_v29 (F := Ideal) (h m c) (src m c) (dst m c) (W1 m c) (b1 m c) (al m c) (W2 m c) (b2 m c)
/-- The messages, as the reference's stage. -/
abbrev msg (c : Dev nD) : S400000x192.Idx → EReal :=
  Cert.ReferenceIdeal.Read.val_main_v31 (F := Ideal) (h m c) (src m c) (dst m c) (W1 m c) (b1 m c) (al m c) (W2 m c) (b2 m c)

/-! ## What the region finds in each staged array -/

theorem V_srcRows (c : Dev nD) : (V m c main_v6 : S400000x192.Idx → EReal) = srcRows m c := by
  show StableHlo.after hostOps0 (fun b => m (c, b)) (Proc.devRef .tc main_v6) = _
  after_results
  rfl

set_option maxHeartbeats 2000000 in
theorem V_feat (c : Dev nD) : (V m c main_v14 : S400000x192.Idx → EReal) = feat m c := by
  show StableHlo.after hostOps0 (fun b => m (c, b)) (Proc.devRef .tc main_v14) = _
  after_results_simp
  rfl

theorem V_b1row (c : Dev nD) : (V m c main_v15 : S1x192.Idx → EReal) = shapeCast S1x192 (b1 m c) Facts₀.shapeCasts_S192_S1x192 := by
  show StableHlo.after hostOps0 (fun b => m (c, b)) (Proc.devRef .tc main_v15) = _
  after_results
  rfl

theorem V_al11 (c : Dev nD) : (V m c main_v16 : S1x1.Idx → EReal) = shapeCast S1x1 (al m c) Facts₀.shapeCasts_S1_S1x1 := by
  show StableHlo.after hostOps0 (fun b => m (c, b)) (Proc.devRef .tc main_v16) = _
  after_results
  rfl

theorem V_b211 (c : Dev nD) : (V m c main_v17 : S1x1.Idx → EReal) = shapeCast S1x1 (b2 m c) Facts₀.shapeCasts_S1_S1x1 := by
  show StableHlo.after hostOps0 (fun b => m (c, b)) (Proc.devRef .tc main_v17) = _
  after_results
  rfl

/-! ## The grid: which rows each point's blocks are -/

theorem hz : (![0, 0] : Fin 2 → Nat) = fun _ => 0 := funext fun a => by fin_cases a <;> rfl

/-- The printed index maps, decided once over the 100 points: the edge-blocked windows are at block row t, column
    block 0; the weights, biases and slope stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row p of point t's block is edge 4000 t + p. -/
def row (t : Fin cfg0.N) (p : Fin 4000) : Fin 400000 :=
  ⟨t.val * 4000 + p.val, by have h : t.val < 100 := Nat.lt_of_lt_of_eq t.isLt N_0; have := p.isLt; omega⟩

/-! ## Each input block, read at an entry -/

theorem iblk0_apply (c : Dev nD) (t : Fin cfg0.N) (p : Fin 4000) (j : Fin 192) :
    (iblk m c 0 t : Vec Ideal S4000x192 .f32) (ix2 p j) = srcRows m c (ix2 (row t p) j) := by
  obtain ⟨e0, e1, -⟩ := idx_facts t
  unfold iblk
  rw [View.read_apply]
  refine (congrFun (V_srcRows m c) _).trans (congrArg (srcRows m c) (funext fun a => Fin.ext ?_))
  match a with
  | ⟨0, _⟩ => show win0_0.index t (0 : Fin 2) * 4000 + 1 * p.val = t.val * 4000 + p.val; omega
  | ⟨1, _⟩ => show win0_0.index t (1 : Fin 2) * 192 + 1 * j.val = j.val; omega

theorem iblk1_apply (c : Dev nD) (t : Fin cfg0.N) (p : Fin 4000) (k : Fin 192) :
    (iblk m c 1 t : Vec Ideal S4000x192 .f32) (ix2 p k) = feat m c (ix2 (row t p) k) := by
  obtain ⟨-, -, e0, e1, -⟩ := idx_facts t
  unfold iblk
  rw [View.read_apply]
  refine (congrFun (V_feat m c) _).trans (congrArg (feat m c) (funext fun a => Fin.ext ?_))
  match a with
  | ⟨0, _⟩ => show win0_1.index t (0 : Fin 2) * 4000 + 1 * p.val = t.val * 4000 + p.val; omega
  | ⟨1, _⟩ => show win0_1.index t (1 : Fin 2) * 192 + 1 * k.val = k.val; omega

theorem iblk2_apply (c : Dev nD) (t : Fin cfg0.N) (k j : Fin 192) :
    (iblk m c 2 t : Vec Ideal S192x192 .f32) (ix2 k j) = W1 m c (ix2 k j) := by
  obtain ⟨-, -, -, -, e0, e1, -⟩ := idx_facts t
  unfold iblk
  rw [View.read_apply]
  refine (congrFun (V_main_arg3 m c) _).trans (congrArg (W1 m c) (funext fun a => Fin.ext ?_))
  match a with
  | ⟨0, _⟩ => show win0_2.index t (0 : Fin 2) * 192 + 1 * k.val = k.val; omega
  | ⟨1, _⟩ => show win0_2.index t (1 : Fin 2) * 192 + 1 * j.val = j.val; omega

theorem iblk3_apply (c : Dev nD) (t : Fin cfg0.N) (j : Fin 192) :
    (iblk m c 3 t : Vec Ideal S1x192 .f32) (ix2 (0 : Fin 1) j) = b1 m c (ix1 j) := by
  obtain ⟨-, -, -, -, -, -, e0, e1, -⟩ := idx_facts t
  unfold iblk
  rw [View.read_apply]
  refine (congrFun (V_b1row m c) _).trans ((congrArg (shapeCast S1x192 (b1 m c) Facts₀.shapeCasts_S192_S1x192)
    (funext fun a => Fin.ext ?_)).trans (shapeCast_a_1a_apply (b1 m c) Facts₀.shapeCasts_S192_S1x192 (0 : Fin 1) j))
  match a with
  | ⟨0, _⟩ => show win0_3.index t (0 : Fin 2) * 1 + 1 * 0 = 0; omega
  | ⟨1, _⟩ => show win0_3.index t (1 : Fin 2) * 192 + 1 * j.val = j.val; omega

/-- A one-entry vector cast to [1, 1] reads its entry. -/
theorem shapeCast_1_11_apply {α : Type} (x : (⟨1, ![1]⟩ : Shape).Idx → α) (h : (⟨1, ![1]⟩ : Shape).ShapeCasts ⟨2, ![1, 1]⟩) :
    shapeCast ⟨2, ![1, 1]⟩ x h (ix2 (0 : Fin 1) (0 : Fin 1)) = x (ix1 (0 : Fin 1)) :=
  shapeCast_a_1a_apply x h (0 : Fin 1) (0 : Fin 1)

theorem iblk4_apply (c : Dev nD) (t : Fin cfg0.N) :
    (iblk m c 4 t : Vec Ideal S1x1 .f32) (ix2 (0 : Fin 1) (0 : Fin 1)) = al m c (ix1 (0 : Fin 1)) := by
  obtain ⟨-, -, -, -, -, -, -, -, e0, e1, -⟩ := idx_facts t
  unfold iblk
  rw [View.read_apply]
  refine (congrFun (V_al11 m c) _).trans ((congrArg (shapeCast S1x1 (al m c) Facts₀.shapeCasts_S1_S1x1)
    (funext fun a => Fin.ext ?_)).trans (shapeCast_1_11_apply (al m c) Facts₀.shapeCasts_S1_S1x1))
  match a with
  | ⟨0, _⟩ => show win0_4.index t (0 : Fin 2) * 1 + 1 * 0 = 0; omega
  | ⟨1, _⟩ => show win0_4.index t (1 : Fin 2) * 1 + 1 * 0 = 0; omega

theorem iblk5_apply (c : Dev nD) (t : Fin cfg0.N) (k : Fin 192) :
    (iblk m c 5 t : Vec Ideal S192x1 .f32) (ix2 k (0 : Fin 1)) = W2 m c (ix2 k (0 : Fin 1)) := by
  obtain ⟨-, -, -, -, -, -, -, -, -, -, e0, e1, -⟩ := idx_facts t
  unfold iblk
  rw [View.read_apply]
  refine (congrFun (V_main_arg6 m c) _).trans (congrArg (W2 m c) (funext fun a => Fin.ext ?_))
  match a with
  | ⟨0, _⟩ => show win0_5.index t (0 : Fin 2) * 192 + 1 * k.val = k.val; omega
  | ⟨1, _⟩ => show win0_5.index t (1 : Fin 2) * 1 + 1 * 0 = 0; omega

theorem iblk6_apply (c : Dev nD) (t : Fin cfg0.N) :
    (iblk m c 6 t : Vec Ideal S1x1 .f32) (ix2 (0 : Fin 1) (0 : Fin 1)) = b2 m c (ix1 (0 : Fin 1)) := by
  obtain ⟨-, -, -, -, -, -, -, -, -, -, -, -, e0, e1, -⟩ := idx_facts t
  unfold iblk
  rw [View.read_apply]
  refine (congrFun (V_b211 m c) _).trans ((congrArg (shapeCast S1x1 (b2 m c) Facts₀.shapeCasts_S1_S1x1)
    (funext fun a => Fin.ext ?_)).trans (shapeCast_1_11_apply (b2 m c) Facts₀.shapeCasts_S1_S1x1))
  match a with
  | ⟨0, _⟩ => show win0_6.index t (0 : Fin 2) * 1 + 1 * 0 = 0; omega
  | ⟨1, _⟩ => show win0_6.index t (1 : Fin 2) * 1 + 1 * 0 = 0; omega

/-! ## What each point writes back -/

/-- The gate of row p of point t's blocks is the reference's gate of edge 4000 t + p. -/
theorem gate_of_blocks (c : Dev nD) (t : Fin cfg0.N) (p : Fin 4000) :
    EdgeGate.gate (fun k => (iblk m c 1 t : Vec Ideal S4000x192 .f32) (ix2 p k))
        (fun k j => (iblk m c 2 t : Vec Ideal S192x192 .f32) (ix2 k j))
        (fun j => (iblk m c 3 t : Vec Ideal S1x192 .f32) (ix2 (0 : Fin 1) j))
        ((iblk m c 4 t : Vec Ideal S1x1 .f32) (ix2 (0 : Fin 1) (0 : Fin 1)))
        (fun k => (iblk m c 5 t : Vec Ideal S192x1 .f32) (ix2 k (0 : Fin 1)))
        ((iblk m c 6 t : Vec Ideal S1x1 .f32) (ix2 (0 : Fin 1) (0 : Fin 1)))
      = gateCol m c (ix2 (row t p) (0 : Fin 1)) := by
  refine Eq.trans ?_ (Cert.ReferenceIdeal.RefRow.gate_apply (h m c) (src m c) (dst m c) (W1 m c) (b1 m c) (al m c) (W2 m c) (b2 m c)
    (row t p) (0 : Fin 1)).symm
  simp only [iblk1_apply, iblk2_apply, iblk3_apply, iblk4_apply, iblk5_apply, iblk6_apply]

/-- WHAT POINT t WRITES BACK TO THE GATE COLUMN is rows 4000 t … of the reference's gate column. -/
theorem gate_block (c : Dev nD) (t : Fin cfg0.N) :
    (dats m 0 c).flushed 8 t = ((cfg0.win 8).blk t).view.read (Elt Ideal) (gateCol m c) := by
  show (cfg0.win 8).cut (grid0.coords t) ((dats m 0 c).after 8 t) = _
  rw [after0_8]
  unfold out0_8
  rw [View.canon_unit_zero hz]
  simp only [View.ld_unit_zero (S := S4000x192) hz, View.ld_unit_zero (S := S192x192) hz, View.ld_unit_zero (S := S1x192) hz,
    View.ld_unit_zero (S := S1x1) hz, View.ld_unit_zero (S := S192x1) hz]
  obtain ⟨-, -, -, -, -, -, -, -, -, -, -, -, -, -, -, -, e0, e1⟩ := idx_facts t
  funext y
  have hy0 : (y 0).val < 4000 := (y 0).isLt
  have hy1 : (y 1).val < 1 := (y 1).isLt
  rw [View.read_apply]
  have hx : (cfg0.win 8).xinj (grid0.coords t) y = (ix2 (⟨(y 0).val, hy0⟩ : Fin 4000) (⟨(y 1).val, hy1⟩ : Fin 1) : S4000x1.Idx) :=
    funext fun a => by match a with | ⟨0, _⟩ => rfl | ⟨1, _⟩ => rfl
  have he : ((cfg0.win 8).blk t).view.emb y = ix2 (row t ⟨(y 0).val, hy0⟩) (0 : Fin 1) :=
    funext fun a => Fin.ext (by
      match a with
      | ⟨0, _⟩ => show win0_8.index t (0 : Fin 2) * 4000 + 1 * (y 0).val = t.val * 4000 + (y 0).val; omega
      | ⟨1, _⟩ => show win0_8.index t (1 : Fin 2) * 1 + 1 * (y 1).val = 0; omega)
  refine (congrArg (k0_pay1 (F := Ideal) (iblk m c 1 t) (iblk m c 2 t) (iblk m c 3 t) (iblk m c 4 t) (iblk m c 5 t) (iblk m c 6 t)) hx).trans ?_
  refine (Row.pay1_apply (iblk m c 1 t) (iblk m c 2 t) (iblk m c 3 t) (iblk m c 4 t) (iblk m c 5 t) (iblk m c 6 t)
    ⟨(y 0).val, hy0⟩ ⟨(y 1).val, hy1⟩).trans ?_
  exact (gate_of_blocks m c t _).trans (congrArg (gateCol m c) he).symm

/-- WHAT POINT t WRITES BACK TO THE MESSAGE ARRAY is rows 4000 t … of the reference's messages. -/
theorem msg_block (c : Dev nD) (t : Fin cfg0.N) :
    (dats m 0 c).flushed 7 t = ((cfg0.win 7).blk t).view.read (Elt Ideal) (msg m c) := by
  show (cfg0.win 7).cut (grid0.coords t) ((dats m 0 c).after 7 t) = _
  rw [after0_7]
  unfold out0_7
  rw [View.canon_unit_zero hz]
  simp only [View.ld_unit_zero (S := S4000x192) hz, View.ld_unit_zero (S := S192x192) hz, View.ld_unit_zero (S := S1x192) hz,
    View.ld_unit_zero (S := S1x1) hz, View.ld_unit_zero (S := S192x1) hz]
  obtain ⟨-, -, -, -, -, -, -, -, -, -, -, -, -, -, e0, e1, -⟩ := idx_facts t
  funext y
  have hy0 : (y 0).val < 4000 := (y 0).isLt
  have hy1 : (y 1).val < 192 := (y 1).isLt
  rw [View.read_apply]
  have hx : (cfg0.win 7).xinj (grid0.coords t) y = (ix2 (⟨(y 0).val, hy0⟩ : Fin 4000) (⟨(y 1).val, hy1⟩ : Fin 192) : S4000x192.Idx) :=
    funext fun a => by match a with | ⟨0, _⟩ => rfl | ⟨1, _⟩ => rfl
  have he : ((cfg0.win 7).blk t).view.emb y = ix2 (row t ⟨(y 0).val, hy0⟩) (⟨(y 1).val, hy1⟩ : Fin 192) :=
    funext fun a => Fin.ext (by
      match a with
      | ⟨0, _⟩ => show win0_7.index t (0 : Fin 2) * 4000 + 1 * (y 0).val = t.val * 4000 + (y 0).val; omega
      | ⟨1, _⟩ => show win0_7.index t (1 : Fin 2) * 192 + 1 * (y 1).val = (y 1).val; omega)
  refine (congrArg (k0_pay2 (F := Ideal) (iblk m c 1 t) (iblk m c 2 t) (iblk m c 3 t) (iblk m c 4 t) (iblk m c 5 t) (iblk m c 6 t) (iblk m c 0 t)) hx).trans ?_
  refine (Row.pay2_apply (iblk m c 1 t) (iblk m c 2 t) (iblk m c 3 t) (iblk m c 4 t) (iblk m c 5 t) (iblk m c 6 t) (iblk m c 0 t)
    ⟨(y 0).val, hy0⟩ ⟨(y 1).val, hy1⟩).trans ?_
  refine Eq.trans ?_ (congrArg (msg m c) he).symm
  refine Eq.trans ?_ (Cert.ReferenceIdeal.RefRow.message_apply (h m c) (src m c) (dst m c) (W1 m c) (b1 m c) (al m c) (W2 m c) (b2 m c)
    (row t ⟨(y 0).val, hy0⟩) ⟨(y 1).val, hy1⟩).symm
  exact congrArg₂ (· * ·) (iblk0_apply m c t ⟨(y 0).val, hy0⟩ ⟨(y 1).val, hy1⟩) (gate_of_blocks m c t ⟨(y 0).val, hy0⟩)

/-! ## The blocks tile the arrays -/

theorem mem_gate_blk (t : Fin cfg0.N) (i : S400000x1.Idx) :
    i ∈ ((cfg0.win 8).blk t).view.set ↔ ∀ a : Fin 2, win0_8.index t a * S4000x1.size a ≤ (i a).val ∧ (i a).val < win0_8.index t a * S4000x1.size a + S4000x1.size a := by
  show i ∈ ((View.whole main_v18_1).slice (win0_8.rect t)).set ↔ _
  rw [View.set_slice_whole, Rect.mem_set_unit]
  exact Iff.rfl

theorem mem_msg_blk (t : Fin cfg0.N) (i : S400000x192.Idx) :
    i ∈ ((cfg0.win 7).blk t).view.set ↔ ∀ a : Fin 2, win0_7.index t a * S4000x192.size a ≤ (i a).val ∧ (i a).val < win0_7.index t a * S4000x192.size a + S4000x192.size a := by
  show i ∈ ((View.whole main_v18_0).slice (win0_7.rect t)).set ↔ _
  rw [View.set_slice_whole, Rect.mem_set_unit]
  exact Iff.rfl

/-- Edge r lies in the block of point r / 4000. -/
theorem gate_cover (i : S400000x1.Idx) : ∃ t : Fin cfg0.N, (cfg0.win 8).flush t = true ∧ i ∈ ((cfg0.win 8).blk t).view.set := by
  have hi0 : (i 0).val < 400000 := (i 0).isLt
  have hi1 : (i 1).val < 1 := (i 1).isLt
  have hN : (i 0).val / 4000 < cfg0.N := Nat.lt_of_lt_of_eq (show (i 0).val / 4000 < 100 by omega) N_0.symm
  obtain ⟨-, -, -, -, -, -, -, -, -, -, -, -, -, -, -, -, e0, e1⟩ := idx_facts ⟨(i 0).val / 4000, hN⟩
  refine ⟨⟨(i 0).val / 4000, hN⟩, flush0_8 _, ?_⟩
  rw [mem_gate_blk]
  intro a
  match a with
  | ⟨0, _⟩ =>
    show win0_8.index ⟨(i 0).val / 4000, hN⟩ (0 : Fin 2) * 4000 ≤ (i 0).val ∧ (i 0).val < win0_8.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_8.index ⟨(i 0).val / 4000, hN⟩ (1 : Fin 2) * 1 ≤ (i 1).val ∧ (i 1).val < win0_8.index ⟨(i 0).val / 4000, hN⟩ (1 : Fin 2) * 1 + 1
    rw [e1]; omega

theorem msg_cover (i : S400000x192.Idx) : ∃ t : Fin cfg0.N, (cfg0.win 7).flush t = true ∧ i ∈ ((cfg0.win 7).blk t).view.set := by
  have hi0 : (i 0).val < 400000 := (i 0).isLt
  have hi1 : (i 1).val < 192 := (i 1).isLt
  have hN : (i 0).val / 4000 < cfg0.N := Nat.lt_of_lt_of_eq (show (i 0).val / 4000 < 100 by omega) N_0.symm
  obtain ⟨-, -, -, -, -, -, -, -, -, -, -, -, -, -, e0, e1, -⟩ := idx_facts ⟨(i 0).val / 4000, hN⟩
  refine ⟨⟨(i 0).val / 4000, hN⟩, flush0_7 _, ?_⟩
  rw [mem_msg_blk]
  intro a
  match a with
  | ⟨0, _⟩ =>
    show win0_7.index ⟨(i 0).val / 4000, hN⟩ (0 : Fin 2) * 4000 ≤ (i 0).val ∧ (i 0).val < win0_7.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_7.index ⟨(i 0).val / 4000, hN⟩ (1 : Fin 2) * 192 ≤ (i 1).val ∧ (i 1).val < win0_7.index ⟨(i 0).val / 4000, hN⟩ (1 : Fin 2) * 192 + 192
    rw [e1]; omega

/-! ## The arrays after the run -/

/-- The gate column ends as the reference's gate column. -/
theorem gate_final (c : Dev nD) : (dats m 0 c).arrAt 8 cfg0.N = gateCol m c :=
  (dats m 0 c).arrAt_eq_of_cover 8 (gateCol m c) (fun t _ => gate_block m c t) gate_cover

/-- The message array ends as the reference's messages. -/
theorem msg_final (c : Dev nD) : (dats m 0 c).arrAt 7 cfg0.N = msg m c :=
  (dats m 0 c).arrAt_eq_of_cover 7 (msg m c) (fun t _ => msg_block m c t) msg_cover

/-! ## The scatter after the region, and the run read -/

/-- The node sums, as the reference's last stage: the messages scatter-added into their destination rows. -/
abbrev nodeSums (c : Dev nD) : S50000x192.Idx → EReal :=
  Cert.ReferenceIdeal.Read.val_main_v34 (F := Ideal) (h m c) (src m c) (dst m c) (W1 m c) (b1 m c) (al m c) (W2 m c) (b2 m c)

/-- After the region the host scatter-adds the message array by the destination indices into zeros: with the message
    array at the reference's messages this is the reference's last stage. -/
theorem tail_eq (c : Dev nD) :
    Pipeline.afterTail₀ cfgs (dats m) 0 (V0 m) [hostOps1] c main_v21 = nodeSums m c := by
  unfold Pipeline.afterTail₀
  show StableHlo.after hostOps1 _ (Proc.devRef .tc main_v21) = _
  after_results
  have e7 : Pipeline.withArrays (cfgs 0).spec c (V0 m c) (fun w => (dats m 0 c).arrAt w (cfgs 0).N) (Proc.devRef .tc main_v18_0) = msg m c :=
    (Pipeline.withArrays_arr spec0 launch0.win.arr_inj c _ _ 7).trans (msg_final m c)
  have e2 : Pipeline.withArrays (cfgs 0).spec c (V0 m c) (fun w => (dats m 0 c).arrAt w (cfgs 0).N) (Proc.devRef .tc main_arg2) = dst m c :=
    (Pipeline.withArrays_of_ne _ c (V0 m c) _ main_arg2 (by exact (by decide : ∀ w, Pipeline.arrRef spec0 w ≠ main_arg2))).trans (V_main_arg2 m c)
  rw [e7, e2]
  rfl

/-- THE RUN, READ: every weakly fair execution ends with the node sums and the gate column at the reference's
    stages of the arguments, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v21) = nodeSums m c
      ∧ r.2.mem ((c.tc : Thread nD τ).loc main_v18_1) = gateCol m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨
      ((h c).2 main_v21 (Pipeline.mem_restRefs_of main_v21 (by decide) (by decide))).trans (tail_eq m c),
      ((h c).1 8).trans (gate_final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 5).trans (((dats m 0 c).arrAt_in 5 rfl _).trans ((A_eq m c 5).trans (V_main_arg6 m c))),
      ((h c).2 main_arg7 (Pipeline.mem_restRefs_of main_arg7 (by decide) (by decide))).trans (W_main_arg7 m (dats m) c)⟩)
    (run_main m ρ)

end Cert.KernelIdeal.Arrays

end
-- ==== Proof.lean ====
/-
  An edge-gated message pass over a graph of 50000 nodes and 400000 edges, the kernel against its jnp reference.

  Both programs gather the source rows h[src] and the destination rows h[dst] (a negative index wrapped by adding
  50000) and multiply them into the edge features. For each edge the gate is
      tanh( leaky(u · W1 + b1) · W2 + b2 ),
  u the edge's feature row and leaky the rectifier with slope alpha on the negative side; the message is the source row
  times the gate; the messages are scatter-added into their destination rows. The reference does all of it on whole
  arrays. The kernel does the gate and the message in a launch over 100 blocks of 4000 edges — the two products on the
  matrix unit into zero accumulators, the operands passed through bf16 — and leaves the gathers and the scatter-add
  to the host.

  Over the extended reals a change of float format is the identity and a product into a zero accumulator is the plain
  sum over the contracted axis, so each block row of the kernel's gate column is the same sum, in the same order, as
  the reference's row: no law of arithmetic beyond 0 + x = x joins the two sides, and the finiteness of the inputs
  is never used. The 100 blocks tile both output arrays, so the gate column and the message array end as the
  reference's stages; the scatter-add after the launch is then the reference's last operation on equal operands.
  The idealization rewrote no operation, so there is nothing to preserve.
-/
import proofs.«125279_j8710193676516_1_alg».proof.Defs
import proofs.«125279_j8710193676516_1_alg».proof.Proof.Gen.Kernel
import proofs.«125279_j8710193676516_1_alg».proof.Proof.Gen.Kernel.Skeleton
import proofs.«125279_j8710193676516_1_alg».proof.Proof.Gen.Kernel.Launch
import proofs.«125279_j8710193676516_1_alg».proof.Proof.Gen.Kernel.Points
import proofs.«125279_j8710193676516_1_alg».proof.Proof.Gen.Kernel.Frame
import proofs.«125279_j8710193676516_1_alg».proof.Proof.Gen.KernelIdeal
import proofs.«125279_j8710193676516_1_alg».proof.Proof.Gen.KernelIdeal.Skeleton
import proofs.«125279_j8710193676516_1_alg».proof.Proof.Gen.KernelIdeal.Launch
import proofs.«125279_j8710193676516_1_alg».proof.Proof.Gen.KernelIdeal.Points
import proofs.«125279_j8710193676516_1_alg».proof.Proof.Gen.KernelIdeal.Frame
import proofs.«125279_j8710193676516_1_alg».proof.Proof.Gen.ReferenceIdeal
import proofs.«125279_j8710193676516_1_alg».proof.Proof.Gen.Pre_finite_inputs
import proofs.«125279_j8710193676516_1_alg».proof.Proof.Gen.ReferenceIdeal.Run
import proofs.«125279_j8710193676516_1_alg».proof.Proof.Gen.ReferenceIdeal.Read
import proofs.«125279_j8710193676516_1_alg».proof.Proof.KernelArrays
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation was rewritten. -/
theorem preserves : Cert.preserves_Kernel_KernelIdeal := trivial

/-- From memories that agree on the arguments both programs end with the node sums and the gate column at the
    reference's stages of those arguments. -/
theorem algebraic : Cert.algebraic_KernelIdeal_ReferenceIdeal := by
  intro m ρ m' ρ' _ hagree
  refine ⟨fun c => Cert.KernelIdeal.Arrays.nodeSums m c, fun c => Cert.KernelIdeal.Arrays.gateCol m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [Cert.ReferenceIdeal.Read.val_main_v34_eq, h0, h1, h2, h3, h4, h5, h6, h7]
  · obtain ⟨h0, h1, h2, h3, h4, h5, h6, h7⟩ := hagree c
    rw [Cert.ReferenceIdeal.Read.val_main_v29_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
